-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x512 : Shape := ⟨2, ![5000, 512]⟩
abbrev S5000x16 : Shape := ⟨2, ![5000, 16]⟩
abbrev S3200000x16 : Shape := ⟨2, ![3200000, 16]⟩
abbrev S1x16 : Shape := ⟨2, ![1, 16]⟩
abbrev S5000x1 : Shape := ⟨2, ![5000, 1]⟩
abbrev S100000x40 : Shape := ⟨2, ![100000, 40]⟩
abbrev S5000x40 : Shape := ⟨2, ![5000, 40]⟩
abbrev S3200000x40 : Shape := ⟨2, ![3200000, 40]⟩
abbrev S1x40 : Shape := ⟨2, ![1, 40]⟩

abbrev nBuf : Space → Nat
  | .hbm => 98
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x16, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x1, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S1x16, .f32⟩
  | .hbm, ⟨59, _⟩ => ⟨S100000x16, .f32⟩
  | .hbm, ⟨60, _⟩ => ⟨S100000x40, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000, .f32⟩
  | .hbm, ⟨79, _⟩ => ⟨S3200000, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S3200000x40, .f32⟩
  | .hbm, ⟨89, _⟩ => ⟨S3200000x1, .f32⟩
  | .hbm, ⟨90, _⟩ => ⟨S3200000x40, .f32⟩
  | .hbm, ⟨91, _⟩ => ⟨S3200000x40, .f32⟩
  | .hbm, ⟨92, _⟩ => ⟨S_, .f32⟩
  | .hbm, ⟨93, _⟩ => ⟨S100000x40, .f32⟩
  | .hbm, ⟨94, _⟩ => ⟨S3200000x1, .i32⟩
  | .hbm, ⟨95, _⟩ => ⟨S100000x40, .f32⟩
  | .hbm, ⟨96, _⟩ => ⟨S1x40, .f32⟩
  | .hbm, ⟨97, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S3200000x1_S3200000_n_0_0_1_wf : ScatterDims.WF S100000 S3200000x1 S3200000 [] [0] [0] 1
  dot_S5000x512_S512x16_S5000x16_1_0_0_1_n_n_wf : DotDims.WF S5000x512 S512x16 S5000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x16, .f32⟩
  | .hbm, ⟨49, _⟩ => ⟨S3200000x1, .f32⟩
  | .hbm, ⟨50, _⟩ => ⟨S3200000x16, .f32⟩
  | .hbm, ⟨51, _⟩ => ⟨S3200000x16, .f32⟩
  | .hbm, ⟨52, _⟩ => ⟨S_, .f32⟩
  | .hbm, ⟨53, _⟩ => ⟨S100000x16, .f32⟩
  | .hbm, ⟨54, _⟩ => ⟨S3200000x1, .i32⟩
  | .hbm, ⟨55, _⟩ => ⟨S100000x16, .f32⟩
  | .hbm, ⟨56, _⟩ => ⟨S100000, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S100000x40, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000, .f32⟩
  | .hbm, ⟨86, _⟩ => ⟨S3200000, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000x40, .f32⟩
  | .hbm, ⟨96, _⟩ => ⟨S3200000x1, .f32⟩
  | .hbm, ⟨97, _⟩ => ⟨S3200000x40, .f32⟩
  | .hbm, ⟨98, _⟩ => ⟨S3200000x40, .f32⟩
  | .hbm, ⟨99, _⟩ => ⟨S_, .f32⟩
  | .hbm, ⟨100, _⟩ => ⟨S100000x40, .f32⟩
  | .hbm, ⟨101, _⟩ => ⟨S3200000x1, .i32⟩
  | .hbm, ⟨102, _⟩ => ⟨S100000x40, .f32⟩
  | .hbm, ⟨103, _⟩ => ⟨S100000, .f32⟩
  | .hbm, ⟨104, _⟩ => ⟨S100000x1, .f32⟩
  | .hbm, ⟨105, _⟩ => ⟨S100000x40, .f32⟩
  | .hbm, ⟨106, _⟩ => ⟨S100000x40, .f32⟩
  | .hbm, ⟨107, _⟩ => ⟨S100000x40, .f32⟩
  | .hbm, ⟨108, _⟩ => ⟨S1x40, .f32⟩
  | .hbm, ⟨109, _⟩ => ⟨S100000x40, .f32⟩
  | .hbm, ⟨110, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3200000x1_S3200000_n_0_0_1_wf : ScatterDims.WF S100000 S3200000x1 S3200000 [] [0] [0] 1
  dot_S100000x512_S512x16_S100000x16_1_0_0_1_n_n_wf : DotDims.WF S100000x512 S512x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Dense1.lean ====
/-
  The first dense product (the program's first kernel region): a[100000, 512] times w[512, 16], by blocks of 5000 rows.
  The region's grid has 20 points; point `t` reads rows `5000·t … 5000·t + 4999` of the left operand (all 512 columns)
  and the whole right operand, and writes the same rows of the output. What it writes at row `p`, column `q` of the block is
  `∑ k, a[5000·t + p, k] · w[k, q]`: the matrix unit's product into a zero accumulator is that sum over the extended
  reals, and the two narrowing conversions in front of it are the identity there. The host's `dot_general` of the whole
  arrays is the same sum at the array's row `5000·t + p`. The twenty blocks tile the 100000 rows, so the output array
  ends equal to the host's product stage whenever the two input arrays hold that stage's operands when the region is entered.
-/
import proofs.«119110_j41059887350377_1_alg».proof.Proof.Gen.KernelIdeal.Frame
import proofs.«119110_j41059887350377_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Cert.ReferenceIdeal.Read
open Idealize.ShloMosaic Idealize.ShloMosaic.TcCoe Idealize.SL.Sem
open Idealize.ShloMosaic.Pipeline (Dat Cfg Window)

theorem origin2 : (![0, 0] : Fin 2 → Nat) = fun _ => 0 := funext fun a => by fin_cases a <;> rfl

/-! ## The product's operand indices, axis by axis -/

theorem left_axis0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem left_axis1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
theorem right_axis0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
theorem right_axis1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Row `j 0`, column `k` of the left block. -/
abbrev leftAt (j : S5000x16.Idx) (k : Fin 512) : S5000x512.Idx := fun a => match a with
  | ⟨0, _⟩ => ⟨(j 0).val, (j 0).isLt⟩
  | ⟨1, _⟩ => ⟨k.val, k.isLt⟩
/-- Row `k`, column `j 1` of the right operand. -/
abbrev rightAt (j : S5000x16.Idx) (k : Fin 512) : S512x16.Idx := fun a => match a with
  | ⟨0, _⟩ => ⟨k.val, k.isLt⟩
  | ⟨1, _⟩ => ⟨(j 1).val, (j 1).isLt⟩

/-- What the body stores, at an index of the block: the sum over the contracted axis of the products. -/
theorem stored_eq_sum (a : Vec Ideal S5000x512 .f32) (w : Vec Ideal S512x16 .f32) (j : S5000x16.Idx) :
    k0_pay1 (F := Ideal) a w j = ∑ k : Fin 512, a (leftAt j k) * w (rightAt j k) := by
  unfold k0_pay1
  -- a cast to the same shape, where the body has one in front of the product, is the identity
  try simp only [shapeCast_self]
  -- the two narrowing conversions are the identity on extended reals
  show FloatOps.matmul (F := Ideal) (φ₁ := .bf16) (φ₂ := .bf16) dot_S5000x512_S512x16_S5000x16_1_0_0_1_n_n none (show FVec Ideal S5000x512 .bf16 from a) (show FVec Ideal S512x16 .bf16 from w) (constant S5000x16 .f32 0x00000000#32) j = _
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx j ((ValueIdx.contrEquiv1 dot_S5000x512_S512x16_S5000x16_1_0_0_1_n_n 512 rfl rfl).symm k) = leftAt j k := funext fun a => Fin.ext (by
    match a with
    | ⟨0, _⟩ => exact left_axis0 _ _
    | ⟨1, _⟩ => exact (left_axis1 _ _).trans hk)
  have er : dot_S5000x512_S512x16_S5000x16_1_0_0_1_n_n.rhsIdx j ((ValueIdx.contrEquiv1 dot_S5000x512_S512x16_S5000x16_1_0_0_1_n_n 512 rfl rfl).symm k) = rightAt j k := funext fun a => Fin.ext (by
    match a with
    | ⟨0, _⟩ => exact (right_axis0 _ _).trans hk
    | ⟨1, _⟩ => exact right_axis1 _ _)
  rw [el, er]

/-! ## The blocks -/

/-- The printed index maps over the grid: the left operand's and the output's blocks move down the rows with the point,
    the right operand's block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Equal factors have equal products. -/
theorem mul_congr {a a' b b' : Ideal .f32} (ea : a = a') (eb : b = b') : a * b = a' * b' := by subst ea eb; rfl

/-! ## Reading a block: each conversion between a block's entry and its array's entry, stated once -/

/-- An entry of the output block of an array `G` is `G`'s entry at the array index the block places it at. -/
theorem out_entry (G : (⟨S100000x16, .f32⟩ : BufTy).Contents (Elt Ideal)) (t : Fin cfg0.N) (y : ((cfg0.win 2).xblock (cfg0.grid.coords t)).Idx) :
    ((cfg0.win 2).blk t).view.read (Elt Ideal) G y = G (((cfg0.win 2).blk t).view.emb y) := rfl
/-- The same for the two input windows, at an index of the block's literal shape. -/
theorem in0_entry (A : (⟨S100000x512, .f32⟩ : BufTy).Contents (Elt Ideal)) (t : Fin cfg0.N) (j : S5000x512.Idx) :
    ((cfg0.win 0).blk t).view.read (Elt Ideal) A j = A (((cfg0.win 0).blk t).view.emb j) := rfl
theorem in1_entry (A : (⟨S512x16, .f32⟩ : BufTy).Contents (Elt Ideal)) (t : Fin cfg0.N) (j : S512x16.Idx) :
    ((cfg0.win 1).blk t).view.read (Elt Ideal) A j = A (((cfg0.win 1).blk t).view.emb j) := rfl

/-- The block's own index of an index of its moved part (all of it, for these windows), at the literal shape. -/
abbrev inBlock (t : Fin cfg0.N) (y : ((cfg0.win 2).xblock (cfg0.grid.coords t)).Idx) : S5000x16.Idx := (win0 2).xinj (grid0.coords t) y

/-- Where the blocks place the two factors of the `k`-th product: at the host product's left and right operand indices. -/
theorem place0 (t : Fin cfg0.N) (y : ((cfg0.win 2).xblock (cfg0.grid.coords t)).Idx) (k : Fin 512) :
    ((cfg0.win 0).blk t).view.emb (leftAt (inBlock t y) k) = lidx_main_v11 (((cfg0.win 2).blk t).view.emb y) k := by
  obtain ⟨e0, e1, e2, e3, e4, e5⟩ := block_indices t
  funext a; apply Fin.ext
  match a with
  | ⟨0, _⟩ => show win0_0.index t (0 : Fin 2) * 5000 + 1 * (y 0).val = win0_2.index t (0 : Fin 2) * 5000 + 1 * (y 0).val; omega
  | ⟨1, _⟩ => show win0_0.index t (1 : Fin 2) * 512 + 1 * k.val = k.val; omega
theorem place1 (t : Fin cfg0.N) (y : ((cfg0.win 2).xblock (cfg0.grid.coords t)).Idx) (k : Fin 512) :
    ((cfg0.win 1).blk t).view.emb (rightAt (inBlock t y) k) = ridx_main_v11 (((cfg0.win 2).blk t).view.emb y) k := by
  obtain ⟨e0, e1, e2, e3, e4, e5⟩ := block_indices t
  funext a; apply Fin.ext
  match a with
  | ⟨0, _⟩ => show win0_1.index t (0 : Fin 2) * 512 + 1 * k.val = k.val; omega
  | ⟨1, _⟩ => show win0_1.index t (1 : Fin 2) * 16 + 1 * (y 1).val = win0_2.index t (1 : Fin 2) * 16 + 1 * (y 1).val; omega

variable (V : (c : Dev nD) → (b : Ref sig .tc) → Buf (Elt Ideal) ((c : Thread nD τ).loc b))

/-- The two input arrays as the region finds them, at their literal types. -/
abbrev leftArr (c : Dev nD) : (⟨S100000x512, .f32⟩ : BufTy).Contents (Elt Ideal) := V c main_arg0
abbrev rightArr (c : Dev nD) : (⟨S512x16, .f32⟩ : BufTy).Contents (Elt Ideal) := V c main_arg2

/-- Each input window's block is its array read through the window. -/
theorem block0 (c : Dev nD) (t : Fin cfg0.N) (j : S5000x512.Idx) : iblk0 V c 0 t j = leftArr V c (((cfg0.win 0).blk t).view.emb j) := in0_entry (leftArr V c) t j
theorem block1 (c : Dev nD) (t : Fin cfg0.N) (j : S512x16.Idx) : iblk0 V c 1 t j = rightArr V c (((cfg0.win 1).blk t).view.emb j) := in1_entry (rightArr V c) t j

/-- What point `t` leaves in the output's staging buffer, at the block's index under `y`. -/
theorem left_at (c : Dev nD) (t : Fin cfg0.N) (y : ((cfg0.win 2).xblock (cfg0.grid.coords t)).Idx) :
    (dat0 V c).flushed 2 t y = k0_pay1 (iblk0 V c 0 t) (iblk0 V c 1 t) (inBlock t y) := by
  have hcut : (dat0 V c).flushed 2 t y = (dat0 V c).after 2 t (inBlock t y) := rfl
  rw [hcut, after0_2]
  unfold out0_2
  rw [View.canon_unit_zero origin2]
  simp only [View.ld_unit_zero (S := S5000x512) origin2, View.ld_unit_zero (S := S512x16) origin2]

variable (x0 : (⟨S100000x512, .f32⟩ : BufTy).Contents (Elt Ideal)) (x2 : (⟨S512x16, .f32⟩ : BufTy).Contents (Elt Ideal))

/-- What point `t` writes back, element by element: under the block's index `y`, the host's product stage at the array
    index the block places `y` at — term by term the same products, when the two input arrays hold that stage's operands. -/
theorem written_at (c : Dev nD) (hl : leftArr V c = x0) (hr : rightArr V c = x2) (t : Fin cfg0.N)
    (y : ((cfg0.win 2).xblock (cfg0.grid.coords t)).Idx) :
    (dat0 V c).flushed 2 t y = val_main_v11 (F := Ideal) x0 x2 (((cfg0.win 2).blk t).view.emb y) :=
  (left_at V c t y).trans <| (stored_eq_sum _ _ (inBlock t y)).trans <|
    (Finset.sum_congr rfl fun k _ => mul_congr
      ((block0 V c t (leftAt (inBlock t y) k)).trans ((congrFun hl _).trans (congrArg x0 (place0 t y k))))
      ((block1 V c t (rightAt (inBlock t y) k)).trans ((congrFun hr _).trans (congrArg x2 (place1 t y k))))).trans
    (val_main_v11_apply x0 x2 _).symm

/-- An index of the output array lies in point `t`'s block iff each coordinate lies in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v13).slice (win0_2.rect t)).set ↔ _
  rw [View.set_slice_whole, Rect.mem_set_unit]
  exact Iff.rfl

/-- Every index of the output array is in the block of the point `row / 5000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 5000 < cfg0.N := lt_of_lt_of_eq (by omega : (i 0).val / 5000 < 20) N_0.symm
  obtain ⟨e0, e1, e2, e3, e4, e5⟩ := block_indices ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 16 ≤ (i 1).val ∧ (i 1).val < win0_2.index ⟨(i 0).val / 5000, hN⟩ (1 : Fin 2) * 16 + 16
    rw [e5]; omega

/-- The output array after the region: the host's product stage, when the region's two input arrays hold its operands.
    Every element of the array is under some point's block, and ends at what that point wrote there; the element types of
    the block and of the array are the same type, so the conversion between them that the cover theorem carries is an
    equality of the two elements. -/
theorem array_after (c : Dev nD) (hl : V c main_arg0 = x0) (hr : V c main_arg2 = x2) :
    (dat0 V c).arrAt 2 cfg0.N = val_main_v11 (F := Ideal) x0 x2 := by
  funext i
  exact (dat0 V c).arrAt_forall_of_cover 2 (fun i v => v = val_main_v11 (F := Ideal) x0 x2 i)
    (fun t _ y => cast_eq_iff_heq.mpr (heq_of_eq (written_at V x0 x2 c hl hr t y))) covered i

end Cert.KernelIdeal.Dense1

end
-- ==== Proof.Through.lean ====
/-
  The program's buffers, boundary by boundary (first part). The program is seven stretches: host operations, the first
  dense product, host operations (the first layer's message passing), the first combine, the second dense product, host
  operations (the second layer's message passing), the second combine. The contents of every buffer after each stretch are
  a fold from the launch memory. Each buffer a later stretch reads is identified, at each boundary where it is read, with
  the host program's stage of the same name in the launch arrays. Here: what the first host stretch computes — the two
  index vectors, the inverse root degrees, and their squares as a column — and what the first dense product leaves. A host
  stretch computes the very operations the host program does (its records and literals are the same, so the two terms
  are one). The one place where the two programs differ in form is the column of squared inverse root degrees and the bias
  rows: the program reshapes a vector into a column or a row where the host broadcasts it; both place entry `r` of the
  vector at `(r, 0)`, or at `(0, r)`.
-/
import proofs.«119110_j41059887350377_1_alg».proof.Proof.Gen.KernelIdeal.Frame
import proofs.«119110_j41059887350377_1_alg».proof.Proof.Gen.ReferenceIdeal.Read
import proofs.«119110_j41059887350377_1_alg».proof.Proof.Dense1
import Idealize.ShloMosaic.Lib.StableHlo.Run
import Idealize.ShloMosaic.Lib.Pipeline.Value

set_option maxRecDepth 16384

noncomputable section

namespace Cert.KernelIdeal.Through

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- The six launch arrays, at their literal types. -/
abbrev a0 (c : Dev nD) : (⟨S100000x512, .f32⟩ : BufTy).Contents (Elt Ideal) := m ((c : Thread nD τ).loc main_arg0)
abbrev a1 (c : Dev nD) : (⟨S2x3200000, .i32⟩ : BufTy).Contents (Elt Ideal) := m ((c : Thread nD τ).loc main_arg1)
abbrev a2 (c : Dev nD) : (⟨S512x16, .f32⟩ : BufTy).Contents (Elt Ideal) := m ((c : Thread nD τ).loc main_arg2)
abbrev a3 (c : Dev nD) : (⟨S16, .f32⟩ : BufTy).Contents (Elt Ideal) := m ((c : Thread nD τ).loc main_arg3)
abbrev a4 (c : Dev nD) : (⟨S16x40, .f32⟩ : BufTy).Contents (Elt Ideal) := m ((c : Thread nD τ).loc main_arg4)
abbrev a5 (c : Dev nD) : (⟨S40, .f32⟩ : BufTy).Contents (Elt Ideal) := m ((c : Thread nD τ).loc main_arg5)

/-! ## A vector reshaped into a column or a row is the vector broadcast into it -/

theorem column_eq (v : (⟨S100000, .f32⟩ : BufTy).Contents (Elt Ideal)) :
    shapeCast S100000x1 v shapeCasts_S100000_S100000x1
      = broadcastInDim Cert.ReferenceIdeal.S100000x1 ![0] Cert.ReferenceIdeal.Gen.bcast_S100000_S100000x1_0 v := by
  funext i
  rw [shapeCast_apply v shapeCasts_S100000_S100000x1 i (idx_main_v41 i) (by
        rewrite [Shape.rowMajor_val_one, Shape.rowMajor_val_two]
        have h1 : (i 1).val < 1 := (i 1).isLt
        show (i 0).val = (i 0).val * 1 + (i 1).val; omega),
      broadcastInDim_apply _ Cert.ReferenceIdeal.Gen.bcast_S100000_S100000x1_0 v i (idx_main_v41 i) (fun a => match a with
        | ⟨0, _⟩ => by show (i 0).val = if (100000 : Nat) = 1 then 0 else (i 0).val; rw [if_neg (by decide)])]

theorem row16_eq (v : (⟨S16, .f32⟩ : BufTy).Contents (Elt Ideal)) :
    shapeCast S1x16 v shapeCasts_S16_S1x16
      = broadcastInDim Cert.ReferenceIdeal.S1x16 ![1] Cert.ReferenceIdeal.Gen.bcast_S16_S1x16_1 v := by
  funext i
  rw [shapeCast_apply v shapeCasts_S16_S1x16 i (idx_main_v45 i) (by
        rewrite [Shape.rowMajor_val_one, Shape.rowMajor_val_two]
        have h0 : (i 0).val < 1 := (i 0).isLt
        show (i 1).val = (i 0).val * 16 + (i 1).val; omega),
      broadcastInDim_apply _ Cert.ReferenceIdeal.Gen.bcast_S16_S1x16_1 v i (idx_main_v45 i) (fun a => match a with
        | ⟨0, _⟩ => by show (i 1).val = if (16 : Nat) = 1 then 0 else (i 1).val; rw [if_neg (by decide)])]

theorem row40_eq (v : (⟨S40, .f32⟩ : BufTy).Contents (Elt Ideal)) :
    shapeCast S1x40 v shapeCasts_S40_S1x40
      = broadcastInDim Cert.ReferenceIdeal.S1x40 ![1] Cert.ReferenceIdeal.Gen.bcast_S40_S1x40_1 v := by
  funext i
  rw [shapeCast_apply v shapeCasts_S40_S1x40 i (idx_main_v83 i) (by
        rewrite [Shape.rowMajor_val_one, Shape.rowMajor_val_two]
        have h0 : (i 0).val < 1 := (i 0).isLt
        show (i 1).val = (i 0).val * 40 + (i 1).val; omega),
      broadcastInDim_apply _ Cert.ReferenceIdeal.Gen.bcast_S40_S1x40_1 v i (idx_main_v83 i) (fun a => match a with
        | ⟨0, _⟩ => by show (i 1).val = if (40 : Nat) = 1 then 0 else (i 1).val; rw [if_neg (by decide)])]

/-! ## After the first host stretch: the two index vectors, the inverse root degrees, their squares as a column -/

theorem at1_src (c : Dev nD) : W1 m ρ c (Proc.devRef .tc main_v1) = val_main_v1 (F := Ideal) (a1 m c) := by
  show StableHlo.after hostOps0 (W0 m ρ c) (Proc.devRef .tc main_v1) = _
  simp only [hostOps0]
  after_results <;> rfl
theorem at1_dst (c : Dev nD) : W1 m ρ c (Proc.devRef .tc main_v3) = val_main_v3 (F := Ideal) (a1 m c) := by
  show StableHlo.after hostOps0 (W0 m ρ c) (Proc.devRef .tc main_v3) = _
  simp only [hostOps0]
  after_results <;> rfl
theorem at1_dinv (c : Dev nD) : W1 m ρ c (Proc.devRef .tc main_v10) = val_main_v10 (F := Ideal) (a1 m c) := by
  show StableHlo.after hostOps0 (W0 m ρ c) (Proc.devRef .tc main_v10) = _
  simp only [hostOps0]
  after_results <;> rfl
theorem at1_col (c : Dev nD) : W1 m ρ c (Proc.devRef .tc main_v12) = val_main_v41 (F := Ideal) (a1 m c) := by
  show StableHlo.after hostOps0 (W0 m ρ c) (Proc.devRef .tc main_v12) = _
  simp only [hostOps0]
  after_results <;> exact column_eq _
theorem at1_a0 (c : Dev nD) : W1 m ρ c (Proc.devRef .tc main_arg0) = a0 m c := by
  show StableHlo.after hostOps0 (W0 m ρ c) (Proc.devRef .tc main_arg0) = _
  simp only [hostOps0]
  after_results <;> rfl
theorem at1_a2 (c : Dev nD) : W1 m ρ c (Proc.devRef .tc main_arg2) = a2 m c := by
  show StableHlo.after hostOps0 (W0 m ρ c) (Proc.devRef .tc main_arg2) = _
  simp only [hostOps0]
  after_results <;> rfl
theorem at1_a3 (c : Dev nD) : W1 m ρ c (Proc.devRef .tc main_arg3) = a3 m c := by
  show StableHlo.after hostOps0 (W0 m ρ c) (Proc.devRef .tc main_arg3) = _
  simp only [hostOps0]
  after_results <;> rfl
theorem at1_a4 (c : Dev nD) : W1 m ρ c (Proc.devRef .tc main_arg4) = a4 m c := by
  show StableHlo.after hostOps0 (W0 m ρ c) (Proc.devRef .tc main_arg4) = _
  simp only [hostOps0]
  after_results <;> rfl
theorem at1_a5 (c : Dev nD) : W1 m ρ c (Proc.devRef .tc main_arg5) = a5 m c := by
  show StableHlo.after hostOps0 (W0 m ρ c) (Proc.devRef .tc main_arg5) = _
  simp only [hostOps0]
  after_results <;> rfl

/-! ## After the first dense product -/

theorem at2_h1 (c : Dev nD) : W2 m ρ c (Proc.devRef .tc main_v13) = val_main_v11 (F := Ideal) (a0 m c) (a2 m c) :=
  (W2_arr m ρ c 2).trans (Dense1.array_after (V1 m ρ) (a0 m c) (a2 m c) c (at1_a0 m ρ c) (at1_a2 m ρ c))

end Cert.KernelIdeal.Through

end
-- ==== Proof.Carried.lean ====
/-
  The buffers carried along: a buffer that the stretch just run does not write still holds, after it, the host program's
  stage it held before. Across a kernel region the buffer is none of the region's arrays; across a host stretch none of the
  stretch's operations writes it.
-/
import proofs.«119110_j41059887350377_1_alg».proof.Proof.Through
import Idealize.ShloMosaic.Lib.StableHlo.Run

set_option maxRecDepth 16384

noncomputable section

namespace Cert.KernelIdeal.Through

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first dense product -/

theorem at2_src (c : Dev nD) : W2 m ρ c (Proc.devRef .tc main_v1) = val_main_v1 (F := Ideal) (a1 m c) :=
  (W2_of_ne m ρ c main_v1 (by decide)).trans (at1_src m ρ c)
theorem at2_dst (c : Dev nD) : W2 m ρ c (Proc.devRef .tc main_v3) = val_main_v3 (F := Ideal) (a1 m c) :=
  (W2_of_ne m ρ c main_v3 (by decide)).trans (at1_dst m ρ c)
theorem at2_dinv (c : Dev nD) : W2 m ρ c (Proc.devRef .tc main_v10) = val_main_v10 (F := Ideal) (a1 m c) :=
  (W2_of_ne m ρ c main_v10 (by decide)).trans (at1_dinv m ρ c)
theorem at2_col (c : Dev nD) : W2 m ρ c (Proc.devRef .tc main_v12) = val_main_v41 (F := Ideal) (a1 m c) :=
  (W2_of_ne m ρ c main_v12 (by decide)).trans (at1_col m ρ c)
theorem at2_a3 (c : Dev nD) : W2 m ρ c (Proc.devRef .tc main_arg3) = a3 m c :=
  (W2_of_ne m ρ c main_arg3 (by decide)).trans (at1_a3 m ρ c)
theorem at2_a4 (c : Dev nD) : W2 m ρ c (Proc.devRef .tc main_arg4) = a4 m c :=
  (W2_of_ne m ρ c main_arg4 (by decide)).trans (at1_a4 m ρ c)
theorem at2_a5 (c : Dev nD) : W2 m ρ c (Proc.devRef .tc main_arg5) = a5 m c :=
  (W2_of_ne m ρ c main_arg5 (by decide)).trans (at1_a5 m ρ c)

/-! ## After the first layer's message passing -/

theorem at3_h1 (c : Dev nD) : W3 m ρ c (Proc.devRef .tc main_v13) = val_main_v11 (F := Ideal) (a0 m c) (a2 m c) := by
  show StableHlo.after hostOps1 (W2 m ρ c) (Proc.devRef .tc main_v13) = _
  simp only [hostOps1]
  after_results_simp
  exact at2_h1 m ρ c
theorem at3_col (c : Dev nD) : W3 m ρ c (Proc.devRef .tc main_v12) = val_main_v41 (F := Ideal) (a1 m c) := by
  show StableHlo.after hostOps1 (W2 m ρ c) (Proc.devRef .tc main_v12) = _
  simp only [hostOps1]
  after_results_simp
  exact at2_col m ρ c
theorem at3_src (c : Dev nD) : W3 m ρ c (Proc.devRef .tc main_v1) = val_main_v1 (F := Ideal) (a1 m c) := by
  show StableHlo.after hostOps1 (W2 m ρ c) (Proc.devRef .tc main_v1) = _
  simp only [hostOps1]
  after_results_simp
  exact at2_src m ρ c
theorem at3_dst (c : Dev nD) : W3 m ρ c (Proc.devRef .tc main_v3) = val_main_v3 (F := Ideal) (a1 m c) := by
  show StableHlo.after hostOps1 (W2 m ρ c) (Proc.devRef .tc main_v3) = _
  simp only [hostOps1]
  after_results_simp
  exact at2_dst m ρ c
theorem at3_dinv (c : Dev nD) : W3 m ρ c (Proc.devRef .tc main_v10) = val_main_v10 (F := Ideal) (a1 m c) := by
  show StableHlo.after hostOps1 (W2 m ρ c) (Proc.devRef .tc main_v10) = _
  simp only [hostOps1]
  after_results_simp
  exact at2_dinv m ρ c
theorem at3_a4 (c : Dev nD) : W3 m ρ c (Proc.devRef .tc main_arg4) = a4 m c := by
  show StableHlo.after hostOps1 (W2 m ρ c) (Proc.devRef .tc main_arg4) = _
  simp only [hostOps1]
  after_results_simp
  exact at2_a4 m ρ c
theorem at3_a5 (c : Dev nD) : W3 m ρ c (Proc.devRef .tc main_arg5) = a5 m c := by
  show StableHlo.after hostOps1 (W2 m ρ c) (Proc.devRef .tc main_arg5) = _
  simp only [hostOps1]
  after_results_simp
  exact at2_a5 m ρ c

/-! ## After the first combine -/

theorem at4_src (c : Dev nD) : W4 m ρ c (Proc.devRef .tc main_v1) = val_main_v1 (F := Ideal) (a1 m c) :=
  (W4_of_ne m ρ c main_v1 (by decide)).trans (at3_src m ρ c)
theorem at4_dst (c : Dev nD) : W4 m ρ c (Proc.devRef .tc main_v3) = val_main_v3 (F := Ideal) (a1 m c) :=
  (W4_of_ne m ρ c main_v3 (by decide)).trans (at3_dst m ρ c)
theorem at4_dinv (c : Dev nD) : W4 m ρ c (Proc.devRef .tc main_v10) = val_main_v10 (F := Ideal) (a1 m c) :=
  (W4_of_ne m ρ c main_v10 (by decide)).trans (at3_dinv m ρ c)
theorem at4_col (c : Dev nD) : W4 m ρ c (Proc.devRef .tc main_v12) = val_main_v41 (F := Ideal) (a1 m c) :=
  ((W4_arr m ρ c 2).trans (((dat1 (V3 m ρ) c).arrAt_in 2 rfl _).trans (A_eq1 (V3 m ρ) c 2))).trans (at3_col m ρ c)
theorem at4_a4 (c : Dev nD) : W4 m ρ c (Proc.devRef .tc main_arg4) = a4 m c :=
  (W4_of_ne m ρ c main_arg4 (by decide)).trans (at3_a4 m ρ c)
theorem at4_a5 (c : Dev nD) : W4 m ρ c (Proc.devRef .tc main_arg5) = a5 m c :=
  (W4_of_ne m ρ c main_arg5 (by decide)).trans (at3_a5 m ρ c)

/-! ## After the second dense product -/

theorem at5_src (c : Dev nD) : W5 m ρ c (Proc.devRef .tc main_v1) = val_main_v1 (F := Ideal) (a1 m c) :=
  (W5_of_ne m ρ c main_v1 (by decide)).trans (at4_src m ρ c)
theorem at5_dst (c : Dev nD) : W5 m ρ c (Proc.devRef .tc main_v3) = val_main_v3 (F := Ideal) (a1 m c) :=
  (W5_of_ne m ρ c main_v3 (by decide)).trans (at4_dst m ρ c)
theorem at5_dinv (c : Dev nD) : W5 m ρ c (Proc.devRef .tc main_v10) = val_main_v10 (F := Ideal) (a1 m c) :=
  (W5_of_ne m ρ c main_v10 (by decide)).trans (at4_dinv m ρ c)
theorem at5_col (c : Dev nD) : W5 m ρ c (Proc.devRef .tc main_v12) = val_main_v41 (F := Ideal) (a1 m c) :=
  (W5_of_ne m ρ c main_v12 (by decide)).trans (at4_col m ρ c)
theorem at5_a5 (c : Dev nD) : W5 m ρ c (Proc.devRef .tc main_arg5) = a5 m c :=
  (W5_of_ne m ρ c main_arg5 (by decide)).trans (at4_a5 m ρ c)

end Cert.KernelIdeal.Through

end
-- ==== Proof.Mix1.lean ====
/-
  The first combine (the program's second kernel region), by blocks of 5000 rows.
  Point `t` reads rows `5000·t … 5000·t + 4999` of three arrays — the aggregated messages g[100000, 16], the dense
  product h[100000, 16] and the column d[100000, 1] — and the one row b[1, 16], and writes the same rows of the output:
  at row `p`, column `q` of the block, `max ((g[p, q] + h[p, q] · d[p, 0]) + b[0, q], 0)`. The host computes, at row `r`,
  column `q` of the whole arrays, `max ((g[r, q] + h[r, q] · d'[r, q]) + b'[r, q], 0)` with d' and b' the column and the row
  broadcast to the full shape: the same number at `r = 5000·t + p`, with the same grouping of the two sums. So when the
  region's four input arrays hold the host's corresponding stages, its output array ends equal to the host's stage after
  the maximum. Nothing here needs the entries to be finite: no law of arithmetic is used, only that the two sides apply
  the same operations to the same entries.
-/
import proofs.«119110_j41059887350377_1_alg».proof.Proof.Gen.KernelIdeal.Frame
import proofs.«119110_j41059887350377_1_alg».proof.Proof.Gen.ReferenceIdeal.Read
import Idealize.ShloMosaic.Lib.Pipeline.Value
import Idealize.ShloMosaic.Lib.ValueIdx

set_option maxRecDepth 16384

noncomputable section

namespace Cert.KernelIdeal.Mix1

open Cert.KernelIdeal Cert.KernelIdeal.Gen Cert.ReferenceIdeal.Read
open Idealize.ShloMosaic Idealize.ShloMosaic.TcCoe Idealize.SL.Sem
open Idealize.ShloMosaic.Pipeline (Dat Cfg Window)

theorem origin2 : (![0, 0] : Fin 2 → Nat) = fun _ => 0 := funext fun a => by fin_cases a <;> rfl

/-- Row `j 0` of the column block. -/
abbrev rowOf (j : S5000x16.Idx) : S5000x1.Idx := fun a => match a with
  | ⟨0, _⟩ => ⟨(j 0).val, (j 0).isLt⟩
  | ⟨1, _⟩ => ⟨0, Nat.one_pos⟩
/-- Column `j 1` of the one-row block. -/
abbrev colOf (j : S5000x16.Idx) : S1x16.Idx := fun a => match a with
  | ⟨0, _⟩ => ⟨0, Nat.one_pos⟩
  | ⟨1, _⟩ => ⟨(j 1).val, (j 1).isLt⟩

/-- The layer's arithmetic on four entries: the aggregated message plus the dense entry times the squared inverse root degree,
    plus the bias, then the maximum with zero — with the grouping both programs use. -/
def combine (a h d b : Ideal .f32) : Ideal .f32 :=
  FloatOps.maximumf (FloatOps.addf (FloatOps.addf a (FloatOps.mulf h d)) b) (FloatOps.ofBits (F := Ideal) .f32 0x00000000#32)

theorem combine_congr {a a' h h' d d' b b' : Ideal .f32} (ea : a = a') (eh : h = h') (ed : d = d') (eb : b = b') :
    combine a h d b = combine a' h' d' b' := by subst ea eh ed eb; rfl

/-- What the body stores, at an index of the block. -/
theorem stored_at (g h : Vec Ideal S5000x16 .f32) (d : Vec Ideal S5000x1 .f32) (b : Vec Ideal S1x16 .f32) (j : S5000x16.Idx) :
    k1_pay1 (F := Ideal) g h d b j = combine (g j) (h j) (d (rowOf j)) (b (colOf j)) := by
  unfold k1_pay1 combine
  simp only [shapeCast_self]
  show FloatOps.maximumf (FloatOps.addf (FloatOps.addf (g j) (FloatOps.mulf (h j) (broadcastTo S5000x16 d broadcasts_S5000x1_S5000x16 j)))
      (broadcastTo S5000x16 b broadcasts_S1x16_S5000x16 j)) (FloatOps.ofBits (F := Ideal) .f32 0x00000000#32) = _
  rw [broadcastTo_apply d broadcasts_S5000x1_S5000x16 j (rowOf j) (fun a => match a with
        | ⟨0, _⟩ => by show (j 0).val = if (5000 : Nat) = 1 then 0 else (j 0).val; rw [if_neg (by decide)]
        | ⟨1, _⟩ => by show 0 = if (1 : Nat) = 1 then 0 else (j 1).val; rw [if_pos rfl]),
      broadcastTo_apply b broadcasts_S1x16_S5000x16 j (colOf j) (fun a => match a with
        | ⟨0, _⟩ => by show 0 = if (1 : Nat) = 1 then 0 else (j 0).val; rw [if_pos rfl]
        | ⟨1, _⟩ => by show (j 1).val = if (16 : Nat) = 1 then 0 else (j 1).val; rw [if_neg (by decide)])]

/-- The printed index maps over the grid: the three row-blocked inputs and the output move down the rows with the point,
    the one-row input's block is the whole array. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Reading a block: each conversion between a block's entry and its array's entry, stated once -/

/-- An entry of the output block of an array `G` is `G`'s entry at the array index the block places it at. -/
theorem out_entry (G : (⟨S100000x16, .f32⟩ : BufTy).Contents (Elt Ideal)) (t : Fin cfg1.N) (y : ((cfg1.win 4).xblock (cfg1.grid.coords t)).Idx) :
    ((cfg1.win 4).blk t).view.read (Elt Ideal) G y = G (((cfg1.win 4).blk t).view.emb y) := rfl
/-- The same for the four input windows, at an index of the block's literal shape. -/
theorem in0_entry (A : (⟨S100000x16, .f32⟩ : BufTy).Contents (Elt Ideal)) (t : Fin cfg1.N) (j : S5000x16.Idx) :
    ((cfg1.win 0).blk t).view.read (Elt Ideal) A j = A (((cfg1.win 0).blk t).view.emb j) := rfl
theorem in1_entry (A : (⟨S100000x16, .f32⟩ : BufTy).Contents (Elt Ideal)) (t : Fin cfg1.N) (j : S5000x16.Idx) :
    ((cfg1.win 1).blk t).view.read (Elt Ideal) A j = A (((cfg1.win 1).blk t).view.emb j) := rfl
theorem in2_entry (A : (⟨S100000x1, .f32⟩ : BufTy).Contents (Elt Ideal)) (t : Fin cfg1.N) (j : S5000x1.Idx) :
    ((cfg1.win 2).blk t).view.read (Elt Ideal) A j = A (((cfg1.win 2).blk t).view.emb j) := rfl
theorem in3_entry (A : (⟨S1x16, .f32⟩ : BufTy).Contents (Elt Ideal)) (t : Fin cfg1.N) (j : S1x16.Idx) :
    ((cfg1.win 3).blk t).view.read (Elt Ideal) A j = A (((cfg1.win 3).blk t).view.emb j) := rfl

/-- The block's own index of an index of its moved part (all of it, for these windows), at the literal shape. -/
abbrev inBlock (t : Fin cfg1.N) (y : ((cfg1.win 4).xblock (cfg1.grid.coords t)).Idx) : S5000x16.Idx := (win1 4).xinj (grid1.coords t) y

/-- Where the blocks place their entries in the arrays: the three row-blocked inputs and the output agree, the column and
    the row land where the host's two broadcasts read them. -/
theorem place0 (t : Fin cfg1.N) (y : ((cfg1.win 4).xblock (cfg1.grid.coords t)).Idx) :
    ((cfg1.win 0).blk t).view.emb (inBlock t y) = ((cfg1.win 4).blk t).view.emb y := by
  obtain ⟨e00, e01, e10, e11, e20, e21, e30, e31, e40, e41⟩ := block_indices t
  funext a; apply Fin.ext
  match a with
  | ⟨0, _⟩ => show win1_0.index t (0 : Fin 2) * 5000 + 1 * (y 0).val = win1_4.index t (0 : Fin 2) * 5000 + 1 * (y 0).val; omega
  | ⟨1, _⟩ => show win1_0.index t (1 : Fin 2) * 16 + 1 * (y 1).val = win1_4.index t (1 : Fin 2) * 16 + 1 * (y 1).val; omega
theorem place1 (t : Fin cfg1.N) (y : ((cfg1.win 4).xblock (cfg1.grid.coords t)).Idx) :
    ((cfg1.win 1).blk t).view.emb (inBlock t y) = ((cfg1.win 4).blk t).view.emb y := by
  obtain ⟨e00, e01, e10, e11, e20, e21, e30, e31, e40, e41⟩ := block_indices t
  funext a; apply Fin.ext
  match a with
  | ⟨0, _⟩ => show win1_1.index t (0 : Fin 2) * 5000 + 1 * (y 0).val = win1_4.index t (0 : Fin 2) * 5000 + 1 * (y 0).val; omega
  | ⟨1, _⟩ => show win1_1.index t (1 : Fin 2) * 16 + 1 * (y 1).val = win1_4.index t (1 : Fin 2) * 16 + 1 * (y 1).val; omega
theorem place2 (t : Fin cfg1.N) (y : ((cfg1.win 4).xblock (cfg1.grid.coords t)).Idx) :
    ((cfg1.win 2).blk t).view.emb (rowOf (inBlock t y)) = idx_main_v42 (((cfg1.win 4).blk t).view.emb y) := by
  obtain ⟨e00, e01, e10, e11, e20, e21, e30, e31, e40, e41⟩ := block_indices t
  funext a; apply Fin.ext
  match a with
  | ⟨0, _⟩ => show win1_2.index t (0 : Fin 2) * 5000 + 1 * (y 0).val = win1_4.index t (0 : Fin 2) * 5000 + 1 * (y 0).val; omega
  | ⟨1, _⟩ => show win1_2.index t (1 : Fin 2) * 1 + 1 * 0 = 0; omega
theorem place3 (t : Fin cfg1.N) (y : ((cfg1.win 4).xblock (cfg1.grid.coords t)).Idx) :
    ((cfg1.win 3).blk t).view.emb (colOf (inBlock t y)) = idx_main_v46 (((cfg1.win 4).blk t).view.emb y) := by
  obtain ⟨e00, e01, e10, e11, e20, e21, e30, e31, e40, e41⟩ := block_indices t
  funext a; apply Fin.ext
  match a with
  | ⟨0, _⟩ => show win1_3.index t (0 : Fin 2) * 1 + 1 * 0 = 0; omega
  | ⟨1, _⟩ => show win1_3.index t (1 : Fin 2) * 16 + 1 * (y 1).val = win1_4.index t (1 : Fin 2) * 16 + 1 * (y 1).val; omega

variable (V : (c : Dev nD) → (b : Ref sig .tc) → Buf (Elt Ideal) ((c : Thread nD τ).loc b))

/-- The four input arrays as the region finds them, at their literal types. -/
abbrev gArr (c : Dev nD) : (⟨S100000x16, .f32⟩ : BufTy).Contents (Elt Ideal) := V c main_v41
abbrev hArr (c : Dev nD) : (⟨S100000x16, .f32⟩ : BufTy).Contents (Elt Ideal) := V c main_v13
abbrev dArr (c : Dev nD) : (⟨S100000x1, .f32⟩ : BufTy).Contents (Elt Ideal) := V c main_v12
abbrev bArr (c : Dev nD) : (⟨S1x16, .f32⟩ : BufTy).Contents (Elt Ideal) := V c main_v42

/-- Each input window's block is its array read through the window. -/
theorem block0 (c : Dev nD) (t : Fin cfg1.N) (j : S5000x16.Idx) : iblk1 V c 0 t j = gArr V c (((cfg1.win 0).blk t).view.emb j) := in0_entry (gArr V c) t j
theorem block1 (c : Dev nD) (t : Fin cfg1.N) (j : S5000x16.Idx) : iblk1 V c 1 t j = hArr V c (((cfg1.win 1).blk t).view.emb j) := in1_entry (hArr V c) t j
theorem block2 (c : Dev nD) (t : Fin cfg1.N) (j : S5000x1.Idx) : iblk1 V c 2 t j = dArr V c (((cfg1.win 2).blk t).view.emb j) := in2_entry (dArr V c) t j
theorem block3 (c : Dev nD) (t : Fin cfg1.N) (j : S1x16.Idx) : iblk1 V c 3 t j = bArr V c (((cfg1.win 3).blk t).view.emb j) := in3_entry (bArr V c) t j

/-- What point `t` leaves in the output's staging buffer, at the block's index under `y`. -/
theorem left_at (c : Dev nD) (t : Fin cfg1.N) (y : ((cfg1.win 4).xblock (cfg1.grid.coords t)).Idx) :
    (dat1 V c).flushed 4 t y = k1_pay1 (iblk1 V c 0 t) (iblk1 V c 1 t) (iblk1 V c 2 t) (iblk1 V c 3 t) (inBlock t y) := by
  have hcut : (dat1 V c).flushed 4 t y = (dat1 V c).after 4 t (inBlock t y) := rfl
  rw [hcut, after1_4]
  unfold out1_4
  rw [View.canon_unit_zero origin2]
  simp only [View.ld_unit_zero (S := S5000x16) origin2, View.ld_unit_zero (S := S5000x1) origin2, View.ld_unit_zero (S := S1x16) origin2]

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))

/-- The host's stage after the maximum, at an array index: the same arithmetic on the host's four entries there. -/
theorem stage_at (e : S100000x16.Idx) :
    val_main_v48 (F := Ideal) x0 x1 x2 x3 e = combine (val_main_v39 (F := Ideal) x0 x1 x2 e) (val_main_v11 (F := Ideal) x0 x2 e)
      (val_main_v41 (F := Ideal) x1 (idx_main_v42 e)) (val_main_v45 (F := Ideal) x3 (idx_main_v46 e)) := by
  rw [val_main_v48_apply, val_main_v47_apply, val_main_v44_apply, val_main_v43_apply, val_main_v42_apply, val_main_v46_apply,
    val_main_call0_v0_apply, val_main_call0_cst_apply]
  rfl

/-- What point `t` writes back, element by element: under the block's index `y`, the host's stage after the maximum at
    the array index the block places `y` at. -/
theorem written_at (c : Dev nD)
    (hg : gArr V c = val_main_v39 (F := Ideal) x0 x1 x2) (hh : hArr V c = val_main_v11 (F := Ideal) x0 x2)
    (hd : dArr V c = val_main_v41 (F := Ideal) x1) (hb : bArr V c = val_main_v45 (F := Ideal) x3) (t : Fin cfg1.N)
    (y : ((cfg1.win 4).xblock (cfg1.grid.coords t)).Idx) :
    (dat1 V c).flushed 4 t y = val_main_v48 (F := Ideal) x0 x1 x2 x3 (((cfg1.win 4).blk t).view.emb y) :=
  (left_at V c t y).trans <| (stored_at _ _ _ _ (inBlock t y)).trans <|
    (combine_congr
      ((block0 V c t (inBlock t y)).trans ((congrFun hg _).trans (congrArg (val_main_v39 (F := Ideal) x0 x1 x2) (place0 t y))))
      ((block1 V c t (inBlock t y)).trans ((congrFun hh _).trans (congrArg (val_main_v11 (F := Ideal) x0 x2) (place1 t y))))
      ((block2 V c t (rowOf (inBlock t y))).trans ((congrFun hd _).trans (congrArg (val_main_v41 (F := Ideal) x1) (place2 t y))))
      ((block3 V c t (colOf (inBlock t y))).trans ((congrFun hb _).trans (congrArg (val_main_v45 (F := Ideal) x3) (place3 t y))))).trans
    (stage_at x0 x1 x2 x3 _).symm

/-- An index of the output array lies in point `t`'s block iff each coordinate lies in the block's range on its axis. -/
theorem mem_block (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v43).slice (win1_4.rect t)).set ↔ _
  rw [View.set_slice_whole, Rect.mem_set_unit]
  exact Iff.rfl

/-- Every index of the output array is in the block of the point `row / 5000`. -/
theorem covered (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : (i 0).val / 5000 < cfg1.N := lt_of_lt_of_eq (by omega : (i 0).val / 5000 < 20) N_1.symm
  obtain ⟨e00, e01, e10, e11, e20, e21, e30, e31, e40, e41⟩ := block_indices ⟨(i 0).val / 5000, hN⟩
  refine ⟨⟨(i 0).val / 5000, hN⟩, flush1_4 _, ?_⟩
  rw [mem_block]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 16 ≤ (i 1).val ∧ (i 1).val < win1_4.index ⟨(i 0).val / 5000, hN⟩ (1 : Fin 2) * 16 + 16
    rw [e41]; omega

/-- The output array after the region: the host's stage after the maximum, when the region's four input arrays hold the
    host's aggregated messages, dense product, broadcast column and broadcast row. Every element of the array is under some
    point's block, and ends at what that point wrote there; the element types of the block and of the array are the same
    type, so the conversion between them that the cover theorem carries is an equality of the two elements. -/
theorem array_after (c : Dev nD)
    (hg : V c main_v41 = val_main_v39 (F := Ideal) x0 x1 x2) (hh : V c main_v13 = val_main_v11 (F := Ideal) x0 x2)
    (hd : V c main_v12 = val_main_v41 (F := Ideal) x1) (hb : V c main_v42 = val_main_v45 (F := Ideal) x3) :
    (dat1 V c).arrAt 4 cfg1.N = val_main_v48 (F := Ideal) x0 x1 x2 x3 := by
  funext i
  exact (dat1 V c).arrAt_forall_of_cover 4 (fun i v => v = val_main_v48 (F := Ideal) x0 x1 x2 x3 i)
    (fun t _ y => cast_eq_iff_heq.mpr (heq_of_eq (written_at V x0 x1 x2 x3 c hg hh hd hb t y))) covered i

end Cert.KernelIdeal.Mix1

end
-- ==== Proof.Dense2.lean ====
/-
  The second dense product (the program's third kernel region): a[100000, 16] times w[16, 40], by blocks of 5000 rows.
  The region's grid has 20 points; point `t` reads rows `5000·t … 5000·t + 4999` of the left operand (all 16 columns)
  and the whole right operand, and writes the same rows of the output. What it writes at row `p`, column `q` of the block is
  `∑ k, a[5000·t + p, k] · w[k, q]`: the matrix unit's product into a zero accumulator is that sum over the extended
  reals, and the two narrowing conversions in front of it are the identity there. The host's `dot_general` of the whole
  arrays is the same sum at the array's row `5000·t + p`. The twenty blocks tile the 100000 rows, so the output array
  ends equal to the host's product stage whenever the two input arrays hold that stage's operands when the region is entered.
-/
import proofs.«119110_j41059887350377_1_alg».proof.Proof.Gen.KernelIdeal.Frame
import proofs.«119110_j41059887350377_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Cert.ReferenceIdeal.Read
open Idealize.ShloMosaic Idealize.ShloMosaic.TcCoe Idealize.SL.Sem
open Idealize.ShloMosaic.Pipeline (Dat Cfg Window)

theorem origin2 : (![0, 0] : Fin 2 → Nat) = fun _ => 0 := funext fun a => by fin_cases a <;> rfl

/-! ## The product's operand indices, axis by axis -/

theorem left_axis0 (j : S5000x40.Idx) (q : dot_S5000x16_S16x40_S5000x40_1_0_0_1_n_n.contr.Idx) :
    (dot_S5000x16_S16x40_S5000x40_1_0_0_1_n_n.lhsIdx j q 0).val = (j 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem left_axis1 (j : S5000x40.Idx) (q : dot_S5000x16_S16x40_S5000x40_1_0_0_1_n_n.contr.Idx) :
    (dot_S5000x16_S16x40_S5000x40_1_0_0_1_n_n.lhsIdx j q 1).val = (q ⟨0, by decide⟩).val :=
  dot_S5000x16_S16x40_S5000x40_1_0_0_1_n_n.lhsIdx_val_of_single rfl j q
theorem right_axis0 (j : S5000x40.Idx) (q : dot_S5000x16_S16x40_S5000x40_1_0_0_1_n_n.contr.Idx) :
    (dot_S5000x16_S16x40_S5000x40_1_0_0_1_n_n.rhsIdx j q 0).val = (q ⟨0, by decide⟩).val :=
  dot_S5000x16_S16x40_S5000x40_1_0_0_1_n_n.rhsIdx_val_of_single rfl j q
theorem right_axis1 (j : S5000x40.Idx) (q : dot_S5000x16_S16x40_S5000x40_1_0_0_1_n_n.contr.Idx) :
    (dot_S5000x16_S16x40_S5000x40_1_0_0_1_n_n.rhsIdx j q 1).val = (j 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- Row `j 0`, column `k` of the left block. -/
abbrev leftAt (j : S5000x40.Idx) (k : Fin 16) : S5000x16.Idx := fun a => match a with
  | ⟨0, _⟩ => ⟨(j 0).val, (j 0).isLt⟩
  | ⟨1, _⟩ => ⟨k.val, k.isLt⟩
/-- Row `k`, column `j 1` of the right operand. -/
abbrev rightAt (j : S5000x40.Idx) (k : Fin 16) : S16x40.Idx := fun a => match a with
  | ⟨0, _⟩ => ⟨k.val, k.isLt⟩
  | ⟨1, _⟩ => ⟨(j 1).val, (j 1).isLt⟩

/-- What the body stores, at an index of the block: the sum over the contracted axis of the products. -/
theorem stored_eq_sum (a : Vec Ideal S5000x16 .f32) (w : Vec Ideal S16x40 .f32) (j : S5000x40.Idx) :
    k2_pay1 (F := Ideal) a w j = ∑ k : Fin 16, a (leftAt j k) * w (rightAt j k) := by
  unfold k2_pay1
  -- a cast to the same shape, where the body has one in front of the product, is the identity
  try simp only [shapeCast_self]
  -- the two narrowing conversions are the identity on extended reals
  show FloatOps.matmul (F := Ideal) (φ₁ := .bf16) (φ₂ := .bf16) dot_S5000x16_S16x40_S5000x40_1_0_0_1_n_n none (show FVec Ideal S5000x16 .bf16 from a) (show FVec Ideal S16x40 .bf16 from w) (constant S5000x40 .f32 0x00000000#32) j = _
  rw [Ideal.matmul_constant_zero_apply, ← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx j ((ValueIdx.contrEquiv1 dot_S5000x16_S16x40_S5000x40_1_0_0_1_n_n 16 rfl rfl).symm k) = leftAt j k := funext fun a => Fin.ext (by
    match a with
    | ⟨0, _⟩ => exact left_axis0 _ _
    | ⟨1, _⟩ => exact (left_axis1 _ _).trans hk)
  have er : dot_S5000x16_S16x40_S5000x40_1_0_0_1_n_n.rhsIdx j ((ValueIdx.contrEquiv1 dot_S5000x16_S16x40_S5000x40_1_0_0_1_n_n 16 rfl rfl).symm k) = rightAt j k := funext fun a => Fin.ext (by
    match a with
    | ⟨0, _⟩ => exact (right_axis0 _ _).trans hk
    | ⟨1, _⟩ => exact right_axis1 _ _)
  rw [el, er]

/-! ## The blocks -/

/-- The printed index maps over the grid: the left operand's and the output's blocks move down the rows with the point,
    the right operand's block is the whole array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Equal factors have equal products. -/
theorem mul_congr {a a' b b' : Ideal .f32} (ea : a = a') (eb : b = b') : a * b = a' * b' := by subst ea eb; rfl

/-! ## Reading a block: each conversion between a block's entry and its array's entry, stated once -/

/-- An entry of the output block of an array `G` is `G`'s entry at the array index the block places it at. -/
theorem out_entry (G : (⟨S100000x40, .f32⟩ : BufTy).Contents (Elt Ideal)) (t : Fin cfg2.N) (y : ((cfg2.win 2).xblock (cfg2.grid.coords t)).Idx) :
    ((cfg2.win 2).blk t).view.read (Elt Ideal) G y = G (((cfg2.win 2).blk t).view.emb y) := rfl
/-- The same for the two input windows, at an index of the block's literal shape. -/
theorem in0_entry (A : (⟨S100000x16, .f32⟩ : BufTy).Contents (Elt Ideal)) (t : Fin cfg2.N) (j : S5000x16.Idx) :
    ((cfg2.win 0).blk t).view.read (Elt Ideal) A j = A (((cfg2.win 0).blk t).view.emb j) := rfl
theorem in1_entry (A : (⟨S16x40, .f32⟩ : BufTy).Contents (Elt Ideal)) (t : Fin cfg2.N) (j : S16x40.Idx) :
    ((cfg2.win 1).blk t).view.read (Elt Ideal) A j = A (((cfg2.win 1).blk t).view.emb j) := rfl

/-- The block's own index of an index of its moved part (all of it, for these windows), at the literal shape. -/
abbrev inBlock (t : Fin cfg2.N) (y : ((cfg2.win 2).xblock (cfg2.grid.coords t)).Idx) : S5000x40.Idx := (win2 2).xinj (grid2.coords t) y

/-- Where the blocks place the two factors of the `k`-th product: at the host product's left and right operand indices. -/
theorem place0 (t : Fin cfg2.N) (y : ((cfg2.win 2).xblock (cfg2.grid.coords t)).Idx) (k : Fin 16) :
    ((cfg2.win 0).blk t).view.emb (leftAt (inBlock t y) k) = lidx_main_v49 (((cfg2.win 2).blk t).view.emb y) k := by
  obtain ⟨e0, e1, e2, e3, e4, e5⟩ := block_indices t
  funext a; apply Fin.ext
  match a with
  | ⟨0, _⟩ => show win2_0.index t (0 : Fin 2) * 5000 + 1 * (y 0).val = win2_2.index t (0 : Fin 2) * 5000 + 1 * (y 0).val; omega
  | ⟨1, _⟩ => show win2_0.index t (1 : Fin 2) * 16 + 1 * k.val = k.val; omega
theorem place1 (t : Fin cfg2.N) (y : ((cfg2.win 2).xblock (cfg2.grid.coords t)).Idx) (k : Fin 16) :
    ((cfg2.win 1).blk t).view.emb (rightAt (inBlock t y) k) = ridx_main_v49 (((cfg2.win 2).blk t).view.emb y) k := by
  obtain ⟨e0, e1, e2, e3, e4, e5⟩ := block_indices t
  funext a; apply Fin.ext
  match a with
  | ⟨0, _⟩ => show win2_1.index t (0 : Fin 2) * 16 + 1 * k.val = k.val; omega
  | ⟨1, _⟩ => show win2_1.index t (1 : Fin 2) * 16 + 1 * (y 1).val = win2_2.index t (1 : Fin 2) * 16 + 1 * (y 1).val; omega

variable (V : (c : Dev nD) → (b : Ref sig .tc) → Buf (Elt Ideal) ((c : Thread nD τ).loc b))

/-- The two input arrays as the region finds them, at their literal types. -/
abbrev leftArr (c : Dev nD) : (⟨S100000x16, .f32⟩ : BufTy).Contents (Elt Ideal) := V c main_v43
abbrev rightArr (c : Dev nD) : (⟨S16x40, .f32⟩ : BufTy).Contents (Elt Ideal) := V c main_arg4

/-- Each input window's block is its array read through the window. -/
theorem block0 (c : Dev nD) (t : Fin cfg2.N) (j : S5000x16.Idx) : iblk2 V c 0 t j = leftArr V c (((cfg2.win 0).blk t).view.emb j) := in0_entry (leftArr V c) t j
theorem block1 (c : Dev nD) (t : Fin cfg2.N) (j : S16x40.Idx) : iblk2 V c 1 t j = rightArr V c (((cfg2.win 1).blk t).view.emb j) := in1_entry (rightArr V c) t j

/-- What point `t` leaves in the output's staging buffer, at the block's index under `y`. -/
theorem left_at (c : Dev nD) (t : Fin cfg2.N) (y : ((cfg2.win 2).xblock (cfg2.grid.coords t)).Idx) :
    (dat2 V c).flushed 2 t y = k2_pay1 (iblk2 V c 0 t) (iblk2 V c 1 t) (inBlock t y) := by
  have hcut : (dat2 V c).flushed 2 t y = (dat2 V c).after 2 t (inBlock t y) := rfl
  rw [hcut, after2_2]
  unfold out2_2
  rw [View.canon_unit_zero origin2]
  simp only [View.ld_unit_zero (S := S5000x16) origin2, View.ld_unit_zero (S := S16x40) origin2]

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal)) (x4 : (⟨S16x40, .f32⟩ : BufTy).Contents (Elt Ideal))

/-- What point `t` writes back, element by element: under the block's index `y`, the host's product stage at the array
    index the block places `y` at — term by term the same products, when the two input arrays hold that stage's operands. -/
theorem written_at (c : Dev nD) (hl : leftArr V c = val_main_v48 (F := Ideal) x0 x1 x2 x3) (hr : rightArr V c = x4) (t : Fin cfg2.N)
    (y : ((cfg2.win 2).xblock (cfg2.grid.coords t)).Idx) :
    (dat2 V c).flushed 2 t y = val_main_v49 (F := Ideal) x0 x1 x2 x3 x4 (((cfg2.win 2).blk t).view.emb y) :=
  (left_at V c t y).trans <| (stored_eq_sum _ _ (inBlock t y)).trans <|
    (Finset.sum_congr rfl fun k _ => mul_congr
      ((block0 V c t (leftAt (inBlock t y) k)).trans ((congrFun hl _).trans (congrArg (val_main_v48 (F := Ideal) x0 x1 x2 x3) (place0 t y k))))
      ((block1 V c t (rightAt (inBlock t y) k)).trans ((congrFun hr _).trans (congrArg x4 (place1 t y k))))).trans
    (val_main_v49_apply x0 x1 x2 x3 x4 _).symm

/-- An index of the output array lies in point `t`'s block iff each coordinate lies in the block's range on its axis. -/
theorem mem_block (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v44).slice (win2_2.rect t)).set ↔ _
  rw [View.set_slice_whole, Rect.mem_set_unit]
  exact Iff.rfl

/-- Every index of the output array is in the block of the point `row / 5000`. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 5000 < cfg2.N := lt_of_lt_of_eq (by omega : (i 0).val / 5000 < 20) N_2.symm
  obtain ⟨e0, e1, e2, e3, e4, e5⟩ := block_indices ⟨(i 0).val / 5000, hN⟩
  refine ⟨⟨(i 0).val / 5000, hN⟩, flush2_2 _, ?_⟩
  rw [mem_block]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 40 ≤ (i 1).val ∧ (i 1).val < win2_2.index ⟨(i 0).val / 5000, hN⟩ (1 : Fin 2) * 40 + 40
    rw [e5]; omega

/-- The output array after the region: the host's product stage, when the region's two input arrays hold its operands.
    Every element of the array is under some point's block, and ends at what that point wrote there; the element types of
    the block and of the array are the same type, so the conversion between them that the cover theorem carries is an
    equality of the two elements. -/
theorem array_after (c : Dev nD) (hl : V c main_v43 = val_main_v48 (F := Ideal) x0 x1 x2 x3) (hr : V c main_arg4 = x4) :
    (dat2 V c).arrAt 2 cfg2.N = val_main_v49 (F := Ideal) x0 x1 x2 x3 x4 := by
  funext i
  exact (dat2 V c).arrAt_forall_of_cover 2 (fun i v => v = val_main_v49 (F := Ideal) x0 x1 x2 x3 x4 i)
    (fun t _ y => cast_eq_iff_heq.mpr (heq_of_eq (written_at V x0 x1 x2 x3 x4 c hl hr t y))) covered i

end Cert.KernelIdeal.Dense2

end
-- ==== Proof.Mix2.lean ====
/-
  The second combine (the program's last kernel region), by blocks of 5000 rows.
  Point `t` reads rows `5000·t … 5000·t + 4999` of three arrays — the aggregated messages g[100000, 40], the dense
  product h[100000, 40] and the column d[100000, 1] — and the one row b[1, 40], and writes the same rows of the output:
  at row `p`, column `q` of the block, `(g[p, q] + h[p, q] · d[p, 0]) + b[0, q]` (this layer takes no maximum). The host
  computes, at row `r`, column `q` of the whole arrays, `(g[r, q] + h[r, q] · d'[r, q]) + b'[r, q]` with d' and b' the column
  and the row broadcast to the full shape: the same number at `r = 5000·t + p`, with the same grouping of the two sums. So
  when the region's four input arrays hold the host's corresponding stages, its output array ends equal to the host's
  result. No law of arithmetic is used, only that the two sides apply the same operations to the same entries.
-/
import proofs.«119110_j41059887350377_1_alg».proof.Proof.Gen.KernelIdeal.Frame
import proofs.«119110_j41059887350377_1_alg».proof.Proof.Gen.ReferenceIdeal.Read
import Idealize.ShloMosaic.Lib.Pipeline.Value
import Idealize.ShloMosaic.Lib.ValueIdx

set_option maxRecDepth 16384

noncomputable section

namespace Cert.KernelIdeal.Mix2

open Cert.KernelIdeal Cert.KernelIdeal.Gen Cert.ReferenceIdeal.Read
open Idealize.ShloMosaic Idealize.ShloMosaic.TcCoe Idealize.SL.Sem
open Idealize.ShloMosaic.Pipeline (Dat Cfg Window)

theorem origin2 : (![0, 0] : Fin 2 → Nat) = fun _ => 0 := funext fun a => by fin_cases a <;> rfl

/-- Row `j 0` of the column block. -/
abbrev rowOf (j : S5000x40.Idx) : S5000x1.Idx := fun a => match a with
  | ⟨0, _⟩ => ⟨(j 0).val, (j 0).isLt⟩
  | ⟨1, _⟩ => ⟨0, Nat.one_pos⟩
/-- Column `j 1` of the one-row block. -/
abbrev colOf (j : S5000x40.Idx) : S1x40.Idx := fun a => match a with
  | ⟨0, _⟩ => ⟨0, Nat.one_pos⟩
  | ⟨1, _⟩ => ⟨(j 1).val, (j 1).isLt⟩

/-- The layer's arithmetic on four entries: the aggregated message plus the dense entry times the squared inverse root degree,
    plus the bias — with the grouping both programs use. -/
def combine (a h d b : Ideal .f32) : Ideal .f32 :=
  FloatOps.addf (FloatOps.addf a (FloatOps.mulf h d)) b

theorem combine_congr {a a' h h' d d' b b' : Ideal .f32} (ea : a = a') (eh : h = h') (ed : d = d') (eb : b = b') :
    combine a h d b = combine a' h' d' b' := by subst ea eh ed eb; rfl

/-- What the body stores, at an index of the block. -/
theorem stored_at (g h : Vec Ideal S5000x40 .f32) (d : Vec Ideal S5000x1 .f32) (b : Vec Ideal S1x40 .f32) (j : S5000x40.Idx) :
    k3_pay1 (F := Ideal) g h d b j = combine (g j) (h j) (d (rowOf j)) (b (colOf j)) := by
  unfold k3_pay1 combine
  simp only [shapeCast_self]
  show FloatOps.addf (F := Ideal) (φ := .f32) (FloatOps.addf (g j) (FloatOps.mulf (h j) (broadcastTo S5000x40 d broadcasts_S5000x1_S5000x40 j)))
      (broadcastTo S5000x40 b broadcasts_S1x40_S5000x40 j) = _
  rw [broadcastTo_apply d broadcasts_S5000x1_S5000x40 j (rowOf j) (fun a => match a with
        | ⟨0, _⟩ => by show (j 0).val = if (5000 : Nat) = 1 then 0 else (j 0).val; rw [if_neg (by decide)]
        | ⟨1, _⟩ => by show 0 = if (1 : Nat) = 1 then 0 else (j 1).val; rw [if_pos rfl]),
      broadcastTo_apply b broadcasts_S1x40_S5000x40 j (colOf j) (fun a => match a with
        | ⟨0, _⟩ => by show 0 = if (1 : Nat) = 1 then 0 else (j 0).val; rw [if_pos rfl]
        | ⟨1, _⟩ => by show (j 1).val = if (40 : Nat) = 1 then 0 else (j 1).val; rw [if_neg (by decide)])]

/-- The printed index maps over the grid: the three row-blocked inputs and the output move down the rows with the point,
    the one-row input's block is the whole array. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## Reading a block: each conversion between a block's entry and its array's entry, stated once -/

/-- An entry of the output block of an array `G` is `G`'s entry at the array index the block places it at. -/
theorem out_entry (G : (⟨S100000x40, .f32⟩ : BufTy).Contents (Elt Ideal)) (t : Fin cfg3.N) (y : ((cfg3.win 4).xblock (cfg3.grid.coords t)).Idx) :
    ((cfg3.win 4).blk t).view.read (Elt Ideal) G y = G (((cfg3.win 4).blk t).view.emb y) := rfl
/-- The same for the four input windows, at an index of the block's literal shape. -/
theorem in0_entry (A : (⟨S100000x40, .f32⟩ : BufTy).Contents (Elt Ideal)) (t : Fin cfg3.N) (j : S5000x40.Idx) :
    ((cfg3.win 0).blk t).view.read (Elt Ideal) A j = A (((cfg3.win 0).blk t).view.emb j) := rfl
theorem in1_entry (A : (⟨S100000x40, .f32⟩ : BufTy).Contents (Elt Ideal)) (t : Fin cfg3.N) (j : S5000x40.Idx) :
    ((cfg3.win 1).blk t).view.read (Elt Ideal) A j = A (((cfg3.win 1).blk t).view.emb j) := rfl
theorem in2_entry (A : (⟨S100000x1, .f32⟩ : BufTy).Contents (Elt Ideal)) (t : Fin cfg3.N) (j : S5000x1.Idx) :
    ((cfg3.win 2).blk t).view.read (Elt Ideal) A j = A (((cfg3.win 2).blk t).view.emb j) := rfl
theorem in3_entry (A : (⟨S1x40, .f32⟩ : BufTy).Contents (Elt Ideal)) (t : Fin cfg3.N) (j : S1x40.Idx) :
    ((cfg3.win 3).blk t).view.read (Elt Ideal) A j = A (((cfg3.win 3).blk t).view.emb j) := rfl

/-- The block's own index of an index of its moved part (all of it, for these windows), at the literal shape. -/
abbrev inBlock (t : Fin cfg3.N) (y : ((cfg3.win 4).xblock (cfg3.grid.coords t)).Idx) : S5000x40.Idx := (win3 4).xinj (grid3.coords t) y

/-- Where the blocks place their entries in the arrays: the three row-blocked inputs and the output agree, the column and
    the row land where the host's two broadcasts read them. -/
theorem place0 (t : Fin cfg3.N) (y : ((cfg3.win 4).xblock (cfg3.grid.coords t)).Idx) :
    ((cfg3.win 0).blk t).view.emb (inBlock t y) = ((cfg3.win 4).blk t).view.emb y := by
  obtain ⟨e00, e01, e10, e11, e20, e21, e30, e31, e40, e41⟩ := block_indices t
  funext a; apply Fin.ext
  match a with
  | ⟨0, _⟩ => show win3_0.index t (0 : Fin 2) * 5000 + 1 * (y 0).val = win3_4.index t (0 : Fin 2) * 5000 + 1 * (y 0).val; omega
  | ⟨1, _⟩ => show win3_0.index t (1 : Fin 2) * 40 + 1 * (y 1).val = win3_4.index t (1 : Fin 2) * 40 + 1 * (y 1).val; omega
theorem place1 (t : Fin cfg3.N) (y : ((cfg3.win 4).xblock (cfg3.grid.coords t)).Idx) :
    ((cfg3.win 1).blk t).view.emb (inBlock t y) = ((cfg3.win 4).blk t).view.emb y := by
  obtain ⟨e00, e01, e10, e11, e20, e21, e30, e31, e40, e41⟩ := block_indices t
  funext a; apply Fin.ext
  match a with
  | ⟨0, _⟩ => show win3_1.index t (0 : Fin 2) * 5000 + 1 * (y 0).val = win3_4.index t (0 : Fin 2) * 5000 + 1 * (y 0).val; omega
  | ⟨1, _⟩ => show win3_1.index t (1 : Fin 2) * 40 + 1 * (y 1).val = win3_4.index t (1 : Fin 2) * 40 + 1 * (y 1).val; omega
theorem place2 (t : Fin cfg3.N) (y : ((cfg3.win 4).xblock (cfg3.grid.coords t)).Idx) :
    ((cfg3.win 2).blk t).view.emb (rowOf (inBlock t y)) = idx_main_v80 (((cfg3.win 4).blk t).view.emb y) := by
  obtain ⟨e00, e01, e10, e11, e20, e21, e30, e31, e40, e41⟩ := block_indices t
  funext a; apply Fin.ext
  match a with
  | ⟨0, _⟩ => show win3_2.index t (0 : Fin 2) * 5000 + 1 * (y 0).val = win3_4.index t (0 : Fin 2) * 5000 + 1 * (y 0).val; omega
  | ⟨1, _⟩ => show win3_2.index t (1 : Fin 2) * 1 + 1 * 0 = 0; omega
theorem place3 (t : Fin cfg3.N) (y : ((cfg3.win 4).xblock (cfg3.grid.coords t)).Idx) :
    ((cfg3.win 3).blk t).view.emb (colOf (inBlock t y)) = idx_main_v84 (((cfg3.win 4).blk t).view.emb y) := by
  obtain ⟨e00, e01, e10, e11, e20, e21, e30, e31, e40, e41⟩ := block_indices t
  funext a; apply Fin.ext
  match a with
  | ⟨0, _⟩ => show win3_3.index t (0 : Fin 2) * 1 + 1 * 0 = 0; omega
  | ⟨1, _⟩ => show win3_3.index t (1 : Fin 2) * 40 + 1 * (y 1).val = win3_4.index t (1 : Fin 2) * 40 + 1 * (y 1).val; omega

variable (V : (c : Dev nD) → (b : Ref sig .tc) → Buf (Elt Ideal) ((c : Thread nD τ).loc b))

/-- The four input arrays as the region finds them, at their literal types. -/
abbrev gArr (c : Dev nD) : (⟨S100000x40, .f32⟩ : BufTy).Contents (Elt Ideal) := V c main_v72
abbrev hArr (c : Dev nD) : (⟨S100000x40, .f32⟩ : BufTy).Contents (Elt Ideal) := V c main_v44
abbrev dArr (c : Dev nD) : (⟨S100000x1, .f32⟩ : BufTy).Contents (Elt Ideal) := V c main_v12
abbrev bArr (c : Dev nD) : (⟨S1x40, .f32⟩ : BufTy).Contents (Elt Ideal) := V c main_v73

/-- Each input window's block is its array read through the window. -/
theorem block0 (c : Dev nD) (t : Fin cfg3.N) (j : S5000x40.Idx) : iblk3 V c 0 t j = gArr V c (((cfg3.win 0).blk t).view.emb j) := in0_entry (gArr V c) t j
theorem block1 (c : Dev nD) (t : Fin cfg3.N) (j : S5000x40.Idx) : iblk3 V c 1 t j = hArr V c (((cfg3.win 1).blk t).view.emb j) := in1_entry (hArr V c) t j
theorem block2 (c : Dev nD) (t : Fin cfg3.N) (j : S5000x1.Idx) : iblk3 V c 2 t j = dArr V c (((cfg3.win 2).blk t).view.emb j) := in2_entry (dArr V c) t j
theorem block3 (c : Dev nD) (t : Fin cfg3.N) (j : S1x40.Idx) : iblk3 V c 3 t j = bArr V c (((cfg3.win 3).blk t).view.emb j) := in3_entry (bArr V c) t j

/-- What point `t` leaves in the output's staging buffer, at the block's index under `y`. -/
theorem left_at (c : Dev nD) (t : Fin cfg3.N) (y : ((cfg3.win 4).xblock (cfg3.grid.coords t)).Idx) :
    (dat3 V c).flushed 4 t y = k3_pay1 (iblk3 V c 0 t) (iblk3 V c 1 t) (iblk3 V c 2 t) (iblk3 V c 3 t) (inBlock t y) := by
  have hcut : (dat3 V c).flushed 4 t y = (dat3 V c).after 4 t (inBlock t y) := rfl
  rw [hcut, after3_4]
  unfold out3_4
  rw [View.canon_unit_zero origin2]
  simp only [View.ld_unit_zero (S := S5000x40) origin2, View.ld_unit_zero (S := S5000x1) origin2, View.ld_unit_zero (S := S1x40) origin2]

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The host's result, at an array index: the same arithmetic on the host's four entries there. -/
theorem stage_at (e : S100000x40.Idx) :
    val_main_v85 (F := Ideal) x0 x1 x2 x3 x4 x5 e = combine (val_main_v77 (F := Ideal) x0 x1 x2 x3 x4 e) (val_main_v49 (F := Ideal) x0 x1 x2 x3 x4 e)
      (val_main_v79 (F := Ideal) x1 (idx_main_v80 e)) (val_main_v83 (F := Ideal) x5 (idx_main_v84 e)) := by
  rw [val_main_v85_apply, val_main_v82_apply, val_main_v81_apply, val_main_v80_apply, val_main_v84_apply]
  rfl

/-- What point `t` writes back, element by element: under the block's index `y`, the host's result at
    the array index the block places `y` at. -/
theorem written_at (c : Dev nD)
    (hg : gArr V c = val_main_v77 (F := Ideal) x0 x1 x2 x3 x4) (hh : hArr V c = val_main_v49 (F := Ideal) x0 x1 x2 x3 x4)
    (hd : dArr V c = val_main_v79 (F := Ideal) x1) (hb : bArr V c = val_main_v83 (F := Ideal) x5) (t : Fin cfg3.N)
    (y : ((cfg3.win 4).xblock (cfg3.grid.coords t)).Idx) :
    (dat3 V c).flushed 4 t y = val_main_v85 (F := Ideal) x0 x1 x2 x3 x4 x5 (((cfg3.win 4).blk t).view.emb y) :=
  (left_at V c t y).trans <| (stored_at _ _ _ _ (inBlock t y)).trans <|
    (combine_congr
      ((block0 V c t (inBlock t y)).trans ((congrFun hg _).trans (congrArg (val_main_v77 (F := Ideal) x0 x1 x2 x3 x4) (place0 t y))))
      ((block1 V c t (inBlock t y)).trans ((congrFun hh _).trans (congrArg (val_main_v49 (F := Ideal) x0 x1 x2 x3 x4) (place1 t y))))
      ((block2 V c t (rowOf (inBlock t y))).trans ((congrFun hd _).trans (congrArg (val_main_v79 (F := Ideal) x1) (place2 t y))))
      ((block3 V c t (colOf (inBlock t y))).trans ((congrFun hb _).trans (congrArg (val_main_v83 (F := Ideal) x5) (place3 t y))))).trans
    (stage_at x0 x1 x2 x3 x4 x5 _).symm

/-- An index of the output array lies in point `t`'s block iff each coordinate lies in the block's range on its axis. -/
theorem mem_block (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v74).slice (win3_4.rect t)).set ↔ _
  rw [View.set_slice_whole, Rect.mem_set_unit]
  exact Iff.rfl

/-- Every index of the output array is in the block of the point `row / 5000`. -/
theorem covered (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  have hN : (i 0).val / 5000 < cfg3.N := lt_of_lt_of_eq (by omega : (i 0).val / 5000 < 20) N_3.symm
  obtain ⟨e00, e01, e10, e11, e20, e21, e30, e31, e40, e41⟩ := block_indices ⟨(i 0).val / 5000, hN⟩
  refine ⟨⟨(i 0).val / 5000, hN⟩, flush3_4 _, ?_⟩
  rw [mem_block]
  intro a
  match a with
  | ⟨0, _⟩ =>
    show win3_4.index ⟨(i 0).val / 5000, hN⟩ (0 : Fin 2) * 5000 ≤ (i 0).val ∧ (i 0).val < win3_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, hN⟩ (1 : Fin 2) * 40 ≤ (i 1).val ∧ (i 1).val < win3_4.index ⟨(i 0).val / 5000, hN⟩ (1 : Fin 2) * 40 + 40
    rw [e41]; omega

/-- The output array after the region: the host's result, when the region's four input arrays hold the host's aggregated
    messages, dense product, broadcast column and broadcast row of the second layer. Every element of the array is under some
    point's block, and ends at what that point wrote there; the element types of the block and of the array are the same
    type, so the conversion between them that the cover theorem carries is an equality of the two elements. -/
theorem array_after (c : Dev nD)
    (hg : V c main_v72 = val_main_v77 (F := Ideal) x0 x1 x2 x3 x4) (hh : V c main_v44 = val_main_v49 (F := Ideal) x0 x1 x2 x3 x4)
    (hd : V c main_v12 = val_main_v79 (F := Ideal) x1) (hb : V c main_v73 = val_main_v83 (F := Ideal) x5) :
    (dat3 V c).arrAt 4 cfg3.N = val_main_v85 (F := Ideal) x0 x1 x2 x3 x4 x5 := by
  funext i
  exact (dat3 V c).arrAt_forall_of_cover 4 (fun i v => v = val_main_v85 (F := Ideal) x0 x1 x2 x3 x4 x5 i)
    (fun t _ y => cast_eq_iff_heq.mpr (heq_of_eq (written_at V x0 x1 x2 x3 x4 x5 c hg hh hd hb t y))) covered i

end Cert.KernelIdeal.Mix2

end
-- ==== Proof.Result.lean ====
/-
  The program's buffers, boundary by boundary (second part): the two message-passing stretches, the two bias rows, what
  the first combine, the second dense product and the second combine leave, and the result. Each message-passing stretch
  applies to the dense product just computed the very operations the host program applies to its own product — the same
  gathers by source and destination node, the same products with the two inverse root degrees, the same scatter-add by
  destination — so, once the stretch's inputs are the host's stages, its output is the host's next stage: the two terms are
  one. Each region then leaves the host's stage after it (the region modules), and the last one leaves the host's result.
-/
import proofs.«119110_j41059887350377_1_alg».proof.Proof.Through
import proofs.«119110_j41059887350377_1_alg».proof.Proof.Carried
import proofs.«119110_j41059887350377_1_alg».proof.Proof.Mix1
import proofs.«119110_j41059887350377_1_alg».proof.Proof.Dense2
import proofs.«119110_j41059887350377_1_alg».proof.Proof.Mix2
import Idealize.ShloMosaic.Lib.StableHlo.Run

set_option maxRecDepth 16384

noncomputable section

namespace Cert.KernelIdeal.Through

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer's message passing, its bias row, and the first combine -/

theorem at3_agg1 (c : Dev nD) : W3 m ρ c (Proc.devRef .tc main_v41) = val_main_v39 (F := Ideal) (a0 m c) (a1 m c) (a2 m c) := by
  show StableHlo.after hostOps1 (W2 m ρ c) (Proc.devRef .tc main_v41) = _
  simp only [hostOps1]
  after_results_simp
  rw [at2_src m ρ c, at2_dst m ρ c, at2_dinv m ρ c, at2_h1 m ρ c]
  rfl

theorem at3_b1 (c : Dev nD) : W3 m ρ c (Proc.devRef .tc main_v42) = val_main_v45 (F := Ideal) (a3 m c) := by
  show StableHlo.after hostOps1 (W2 m ρ c) (Proc.devRef .tc main_v42) = _
  simp only [hostOps1]
  after_results_simp
  rw [at2_a3 m ρ c]
  exact row16_eq _

theorem at4_out1 (c : Dev nD) : W4 m ρ c (Proc.devRef .tc main_v43) = val_main_v48 (F := Ideal) (a0 m c) (a1 m c) (a2 m c) (a3 m c) :=
  (W4_arr m ρ c 4).trans (Mix1.array_after (V3 m ρ) (a0 m c) (a1 m c) (a2 m c) (a3 m c) c (at3_agg1 m ρ c) (at3_h1 m ρ c) (at3_col m ρ c) (at3_b1 m ρ c))

/-! ## The second dense product, the second layer's message passing and its bias row -/

theorem at5_h2 (c : Dev nD) : W5 m ρ c (Proc.devRef .tc main_v44) = val_main_v49 (F := Ideal) (a0 m c) (a1 m c) (a2 m c) (a3 m c) (a4 m c) :=
  (W5_arr m ρ c 2).trans (Dense2.array_after (V4 m ρ) (a0 m c) (a1 m c) (a2 m c) (a3 m c) (a4 m c) c (at4_out1 m ρ c) (at4_a4 m ρ c))

theorem at6_agg2 (c : Dev nD) : W6 m ρ c (Proc.devRef .tc main_v72) = val_main_v77 (F := Ideal) (a0 m c) (a1 m c) (a2 m c) (a3 m c) (a4 m c) := by
  show StableHlo.after hostOps3 (W5 m ρ c) (Proc.devRef .tc main_v72) = _
  simp only [hostOps3]
  after_results_simp
  rw [at5_src m ρ c, at5_dst m ρ c, at5_dinv m ρ c, at5_h2 m ρ c]
  rfl

theorem at6_b2 (c : Dev nD) : W6 m ρ c (Proc.devRef .tc main_v73) = val_main_v83 (F := Ideal) (a5 m c) := by
  show StableHlo.after hostOps3 (W5 m ρ c) (Proc.devRef .tc main_v73) = _
  simp only [hostOps3]
  after_results_simp
  rw [at5_a5 m ρ c]
  exact row40_eq _

/-- The second dense product and the column of squares are not written by the second message-passing stretch. -/
theorem at6_h2 (c : Dev nD) : W6 m ρ c (Proc.devRef .tc main_v44) = val_main_v49 (F := Ideal) (a0 m c) (a1 m c) (a2 m c) (a3 m c) (a4 m c) := by
  show StableHlo.after hostOps3 (W5 m ρ c) (Proc.devRef .tc main_v44) = _
  simp only [hostOps3]
  after_results_simp
  exact at5_h2 m ρ c

theorem at6_col (c : Dev nD) : W6 m ρ c (Proc.devRef .tc main_v12) = val_main_v41 (F := Ideal) (a1 m c) := by
  show StableHlo.after hostOps3 (W5 m ρ c) (Proc.devRef .tc main_v12) = _
  simp only [hostOps3]
  after_results_simp
  exact at5_col m ρ c

/-- The result array after the run: the host program's result stage of the launch arrays. (The second layer's column is
    the first layer's: the host computes the squares twice, by the same operations.) -/
theorem result_eq (c : Dev nD) : W7 m ρ c (Proc.devRef .tc main_v74) = val_main_v85 (F := Ideal) (a0 m c) (a1 m c) (a2 m c) (a3 m c) (a4 m c) (a5 m c) :=
  (W7_arr m ρ c 4).trans (Mix2.array_after (V6 m ρ) (a0 m c) (a1 m c) (a2 m c) (a3 m c) (a4 m c) (a5 m c) c
    (at6_agg2 m ρ c) (at6_h2 m ρ c) ((at6_col m ρ c).trans rfl) (at6_b2 m ρ c))

end Cert.KernelIdeal.Through

end
-- ==== Proof.lean ====
/-
  A two-layer graph convolution over 100000 nodes and 3200000 edges, as a program of four kernel regions among host
  operations, against the plain host program: both compute

      layer(h, b) = (A(h) + h · d²) + b,        A(h)[v] = Σ over edges (u → v) of d[u] · d[v] · h[u],

  with d[v] = (1 + the number of edges into v)^(-1/2), first on h = x · W₁ with bias b₁ followed by the maximum with zero,
  then on the product of that with W₂, with bias b₂. The program computes the two dense products and the two combining
  steps in kernel regions of 20 blocks of 5000 rows, and the degree count, the gathers and the scatter-adds on the host, by
  the same operations as the host program.

  The claims. The three programs run to the end without a fault and leave their arguments unchanged (for the two kernel
  programs, the frame over their seven stretches; for the host program, its run). The idealized program is the program's
  own text read over the extended reals: the idealization rewrote nothing. And over the extended reals the two programs
  end with the same result array: region by region, the program's array is the host program's stage of the same name
  (the dense products are the same sums, term by term; the combining steps apply the same operations to the same entries,
  in the same grouping; the host stretches are the host program's own operations), so the result buffer after the last
  region is the host program's result of the same six arrays. No law of arithmetic beyond these identities is needed, so
  the precondition (finite inputs) is not used by the value claim.
-/
import proofs.«119110_j41059887350377_1_alg».proof.Defs
import proofs.«119110_j41059887350377_1_alg».proof.Proof.Gen.Kernel
import proofs.«119110_j41059887350377_1_alg».proof.Proof.Gen.Kernel.Skeleton
import proofs.«119110_j41059887350377_1_alg».proof.Proof.Gen.Kernel.Launch
import proofs.«119110_j41059887350377_1_alg».proof.Proof.Gen.Kernel.Points
import proofs.«119110_j41059887350377_1_alg».proof.Proof.Gen.Kernel.Frame
import proofs.«119110_j41059887350377_1_alg».proof.Proof.Gen.KernelIdeal
import proofs.«119110_j41059887350377_1_alg».proof.Proof.Gen.KernelIdeal.Skeleton
import proofs.«119110_j41059887350377_1_alg».proof.Proof.Gen.KernelIdeal.Launch
import proofs.«119110_j41059887350377_1_alg».proof.Proof.Gen.KernelIdeal.Points
import proofs.«119110_j41059887350377_1_alg».proof.Proof.Gen.KernelIdeal.Frame
import proofs.«119110_j41059887350377_1_alg».proof.Proof.Gen.ReferenceIdeal
import proofs.«119110_j41059887350377_1_alg».proof.Proof.Gen.Pre_finite_inputs
import proofs.«119110_j41059887350377_1_alg».proof.Proof.Gen.ReferenceIdeal.Run
import proofs.«119110_j41059887350377_1_alg».proof.Proof.Gen.ReferenceIdeal.Read
import proofs.«119110_j41059887350377_1_alg».proof.Proof.KernelRun
import proofs.«119110_j41059887350377_1_alg».proof.Proof.Result
import Idealize.ShloMosaic.Adequacy
import Idealize.ShloMosaic.Init

noncomputable section

namespace Cert.Proof

open Idealize.ShloMosaic Idealize.SL.Sem

/-- The program runs and leaves its arguments as launched. -/
theorem frame_program : Cert.frame_Kernel := fun m ρ _ => Cert.Kernel.Gen.frame m ρ

/-- So does its text read over the extended reals. -/
theorem frame_idealized : Cert.frame_KernelIdeal := fun m ρ _ => Cert.KernelIdeal.Gen.frame m ρ

/-- The host program runs and leaves its arguments as launched: its run, the result dropped. -/
theorem frame_host : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem idealization : Cert.preserves_Kernel_KernelIdeal := trivial

/-- Over the extended reals, from memories that agree on the six arguments, both programs end with the host program's
    result stage of those arguments in their result buffers. -/
theorem same_result : Cert.algebraic_KernelIdeal_ReferenceIdeal := by
  intro m ρ m' ρ' _ hagree
  refine ⟨fun c => Cert.ReferenceIdeal.Read.val_main_v85 (F := Ideal) (Cert.KernelIdeal.Through.a0 m c) (Cert.KernelIdeal.Through.a1 m c)
      (Cert.KernelIdeal.Through.a2 m c) (Cert.KernelIdeal.Through.a3 m c) (Cert.KernelIdeal.Through.a4 m c) (Cert.KernelIdeal.Through.a5 m c), ?_, ?_⟩
  · exact (θ_run Cert.KernelIdeal.defs _ _).mono
      (fun r h c => ⟨(h c).1.trans (Cert.KernelIdeal.Through.result_eq m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_program, frame_idealized, frame_host, idealization, same_result⟩

end Cert.Proof

end
